-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128x128 : Shape := ⟨4, ![8, 256, 128, 128]⟩
abbrev S_ : Shape := ⟨0, ![]⟩

class Facts : Prop where
  bcast_S_S8x256x128x128 : S_.BroadcastsInDim S8x256x128x128 (![] : Fin 0 → Fin S8x256x128x128.rank)
  reducesTo_S8x256x128x128_S_d0_1_2_3 : S8x256x128x128.ReducesTo [0, 1, 2, 3] S_
  h_S_ : 0 < S_.numel

variable [Facts]

def fn {F : FTy → Type} [FloatOps F] (main_arg0 : FVec F S8x256x128x128 .f32) (main_arg1 : FVec F S8x256x128x128 .f32) : IVec S_ 1 :=
  let main_v0 : FVec F S8x256x128x128 .f32 := Host.absf main_arg0
  let main_cst : FVec F S_ .f32 := constant S_ .f32 0x7F800000#32
  let main_v1 : FVec F S8x256x128x128 .f32 := broadcastInDim S8x256x128x128 ![] bcast_S_S8x256x128x128 main_cst
  let main_v2 : IVec S8x256x128x128 1 := cmpf .olt main_v0 main_v1
  let main_c : IVec S_ 1 := constantI S_ 1 1#1
  let main_v3 : IVec S_ 1 := (fun x v => Host.reduce IntOp.andi x v reducesTo_S8x256x128x128_S_d0_1_2_3 h_S_) main_v2 main_c
  let main_v4 : FVec F S8x256x128x128 .f32 := Host.absf main_arg1
  let main_cst_0 : FVec F S_ .f32 := constant S_ .f32 0x7F800000#32
  let main_v5 : FVec F S8x256x128x128 .f32 := broadcastInDim S8x256x128x128 ![] bcast_S_S8x256x128x128 main_cst_0
  let main_v6 : IVec S8x256x128x128 1 := cmpf .olt main_v4 main_v5
  let main_c_1 : IVec S_ 1 := constantI S_ 1 1#1
  let main_v7 : IVec S_ 1 := (fun x v => Host.reduce IntOp.andi x v reducesTo_S8x256x128x128_S_d0_1_2_3 h_S_) main_v6 main_c_1
  let main_v8 : IVec S_ 1 := andi main_v3 main_v7
  main_v8
-- ==== Kernel.lean ====
abbrev S8x256x128x128 : Shape := ⟨4, ![8, 256, 128, 128]⟩
abbrev S8x128x128 : Shape := ⟨3, ![8, 128, 128]⟩
abbrev S1x64x128x128 : Shape := ⟨4, ![1, 64, 128, 128]⟩
abbrev S1x128x128 : Shape := ⟨3, ![1, 128, 128]⟩
abbrev S8x64x2x64x2 : Shape := ⟨5, ![8, 64, 2, 64, 2]⟩
abbrev S_ : Shape := ⟨0, ![]⟩
abbrev S8x64x64 : Shape := ⟨3, ![8, 64, 64]⟩
abbrev S8x2x2x64x64 : Shape := ⟨5, ![8, 2, 2, 64, 64]⟩
abbrev S1 : Shape := ⟨1, ![1]⟩
abbrev S2 : Shape := ⟨1, ![2]⟩

abbrev nBuf : Space → Nat
  | .hbm => 14
  | .vmem => 6
  | .smem => 0
  | _ => 0

abbrev bufTy : (tb : Table) → Fin (tcTables nBuf tb) → BufTy
  | .hbm, ⟨0, _⟩ => ⟨S8x256x128x128, .f32⟩
  | .hbm, ⟨1, _⟩ => ⟨S8x256x128x128, .f32⟩
  | .hbm, ⟨2, _⟩ => ⟨S8x128x128, .f32⟩
  | .hbm, ⟨3, _⟩ => ⟨S8x64x2x64x2, .f32⟩
  | .hbm, ⟨4, _⟩ => ⟨S_, .f32⟩
  | .hbm, ⟨5, _⟩ => ⟨S8x64x64, .f32⟩
  | .hbm, ⟨6, _⟩ => ⟨S_, .f32⟩
  | .hbm, ⟨7, _⟩ => ⟨S8x2x2x64x64, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S8x2x2x64x64, .f32⟩
  | .local _ .vmem, ⟨0, _⟩ => ⟨S1x64x128x128, .f32⟩
  | .local _ .vmem, ⟨1, _⟩ => ⟨S1x64x128x128, .f32⟩
  | .local _ .vmem, ⟨2, _⟩ => ⟨S1x64x128x128, .f32⟩
  | .local _ .vmem, ⟨3, _⟩ => ⟨S1x64x128x128, .f32⟩
  | .local _ .vmem, ⟨4, _⟩ => ⟨S1x128x128, .f32⟩
  | .local _ .vmem, ⟨5, _⟩ => ⟨S1x128x128, .f32⟩
  | _, _ => ⟨S8x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x128x128_S1x128x128_0_0_0 : ∀ a, (![0, 0, 0] : Fin 3 → Nat) a + S1x128x128.size a ≤ S1x128x128.size a
  h_S1x128x128 : 0 < S1x128x128.numel
  inb_S1x64x128x128_S1x64x128x128_0_0_0_0 : ∀ a, (![0, 0, 0, 0] : Fin 4 → Nat) a + S1x64x128x128.size a ≤ S1x64x128x128.size a
  h_S1x64x128x128 : 0 < S1x64x128x128.numel
  reduces_S1x64x128x128_S1x128x128 : S1x64x128x128.Reduces [1] S1x128x128
  shapeCasts_S1x128x128_S1x128x128 : S1x128x128.ShapeCasts S1x128x128
  shapeCasts_S8x128x128_S8x64x2x64x2 : S8x128x128.ShapeCasts S8x64x2x64x2
  reducesTo_S8x64x2x64x2_S8x64x64_d2_4 : S8x64x2x64x2.ReducesTo [2, 4] S8x64x64
  h_S_ : 0 < S_.numel
  bcast_S_S8x2x2x64x64 : S_.BroadcastsInDim S8x2x2x64x64 (![] : Fin 0 → Fin S8x2x2x64x64.rank)
  bcast_S_S1 : S_.BroadcastsInDim S1 (![] : Fin 0 → Fin S1.rank)
  concatenates_S1_S1_S2_d0 : Shape.Concatenates [S1, S1] S2 0
  scatter_S8x2x2x64x64_S2_S8x64x64_012_12_12_0_wf : ScatterDims.WF S8x2x2x64x64 S2 S8x64x64 [0, 1, 2] [1, 2] [1, 2] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128x128.size a ≤ S8x256x128x128.size a
  hwx0_0 : ∀ i : grid0.Coords, EltTy.bits .f32 = 32 ∨ (Rect.block (s := S8x256x128x128) S1x64x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128x128.size a ≤ S8x256x128x128.size a
  hwx0_1 : ∀ i : grid0.Coords, EltTy.bits .f32 = 32 ∨ (Rect.block (s := S8x256x128x128) S1x64x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S8x128x128.size a
  hwx0_2 : ∀ i : grid0.Coords, EltTy.bits .f32 = 32 ∨ (Rect.block (s := S8x128x128) S1x128x128.size (cc0_transform_2 i) (hinb0_2 i)).WholeWords (EltTy.packing .f32)

variable [Facts₀]

def scatter_S8x2x2x64x64_S2_S8x64x64_012_12_12_0 : ScatterDims S8x2x2x64x64 S2 S8x64x64 where
  updateWindowDims := [0, 1, 2]
  insertedWindowDims := [1, 2]
  scatterDimsToOperandDims := [1, 2]
  indexVectorDim := 0
  wf := scatter_S8x2x2x64x64_S2_S8x64x64_012_12_12_0_wf

abbrev win0_0 : Pipeline.Window sig grid0 :=
  Pipeline.Window.ofSpec (Memref.whole main_arg0) S1x64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x256x128x128 : Shape := ⟨4, ![8, 256, 128, 128]⟩
abbrev S8x256x64x2x64x2 : Shape := ⟨6, ![8, 256, 64, 2, 64, 2]⟩
abbrev S_ : Shape := ⟨0, ![]⟩
abbrev S8x64x64 : Shape := ⟨3, ![8, 64, 64]⟩
abbrev S8x2x2x64x64 : Shape := ⟨5, ![8, 2, 2, 64, 64]⟩
abbrev S1 : Shape := ⟨1, ![1]⟩
abbrev S2 : Shape := ⟨1, ![2]⟩

abbrev nBuf : Space → Nat
  | .hbm => 14
  | .vmem => 0
  | .smem => 0
  | _ => 0

abbrev bufTy : (tb : Table) → Fin (tcTables nBuf tb) → BufTy
  | .hbm, ⟨0, _⟩ => ⟨S8x256x128x128, .f32⟩
  | .hbm, ⟨1, _⟩ => ⟨S8x256x128x128, .f32⟩
  | .hbm, ⟨2, _⟩ => ⟨S8x256x128x128, .f32⟩
  | .hbm, ⟨3, _⟩ => ⟨S8x256x64x2x64x2, .f32⟩
  | .hbm, ⟨4, _⟩ => ⟨S_, .f32⟩
  | .hbm, ⟨5, _⟩ => ⟨S8x64x64, .f32⟩
  | .hbm, ⟨6, _⟩ => ⟨S_, .f32⟩
  | .hbm, ⟨7, _⟩ => ⟨S8x2x2x64x64, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S8x2x2x64x64, .f32⟩
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  shapeCasts_S8x256x128x128_S8x256x64x2x64x2 : S8x256x128x128.ShapeCasts S8x256x64x2x64x2
  reducesTo_S8x256x64x2x64x2_S8x64x64_d1_3_5 : S8x256x64x2x64x2.ReducesTo [1, 3, 5] S8x64x64
  h_S_ : 0 < S_.numel
  bcast_S_S8x2x2x64x64 : S_.BroadcastsInDim S8x2x2x64x64 (![] : Fin 0 → Fin S8x2x2x64x64.rank)
  bcast_S_S1 : S_.BroadcastsInDim S1 (![] : Fin 0 → Fin S1.rank)
  concatenates_S1_S1_S2_d0 : Shape.Concatenates [S1, S1] S2 0
  scatter_S8x2x2x64x64_S2_S8x64x64_012_12_12_0_wf : ScatterDims.WF S8x2x2x64x64 S2 S8x64x64 [0, 1, 2] [1, 2] [1, 2] 0

variable [Facts₀]

def scatter_S8x2x2x64x64_S2_S8x64x64_012_12_12_0 : ScatterDims S8x2x2x64x64 S2 S8x64x64 where
  updateWindowDims := [0, 1, 2]
  insertedWindowDims := [1, 2]
  scatterDimsToOperandDims := [1, 2]
  indexVectorDim := 0
  wf := scatter_S8x2x2x64x64_S2_S8x64x64_012_12_12_0_wf

class Facts : Prop extends Facts₀ where

variable [Facts]
-- ==== Proof.KernelPieces.lean ====
/-
  What one run of the kernel body leaves in the output block.

  The body has two control cases.  At the first channel group of a batch entry it stores a block of zeros,
  reads it back, and stores that block plus the group's sum of products; at a later group it reads the block
  the previous point left and stores it plus the group's sum.  Either way the block ends as the body's one
  arithmetic term of the two input blocks and of the block it read back.
-/
import proofs.«125104_j44255343018948_1_alg».proof.Proof.Gen.KernelIdeal.Frame
import Idealize.ShloMosaic.Lib.Pipeline.Value
import Idealize.ShloMosaic.Lib.Tactic

noncomputable section

namespace Cert.KernelIdeal.CorrValue

open Idealize.ShloMosaic Idealize.ShloMosaic.TcCoe Idealize.SL.Sem
open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A later group: the block `xo` left by the point before, plus this group's sum of products. -/
theorem later_group (c : Dev nD) (i : grid0.Coords) (a2 : Memref sig .tc .vmem S1x64x128x128 .f32) (h2 : a2.IsWhole)
    (a3 : Memref sig .tc .vmem S1x64x128x128 .f32) (h3 : a3.IsWhole) (a4 : Memref sig .tc .vmem S1x128x128 .f32)
    (h4 : a4.IsWhole) (hc : ¬cond0_0 i) (x0 x1 : Vec F S1x64x128x128 .f32) (xo : Vec F S1x128x128 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread,
    View.ld_unit_zero (S := S1x64x128x128) hz4, View.ld_unit_zero (S := S1x128x128) hz3]

/-- The first group: the zero block, plus this group's sum of products. -/
theorem first_group (c : Dev nD) (i : grid0.Coords) (a2 : Memref sig .tc .vmem S1x64x128x128 .f32) (h2 : a2.IsWhole)
    (a3 : Memref sig .tc .vmem S1x64x128x128 .f32) (h3 : a3.IsWhole) (a4 : Memref sig .tc .vmem S1x128x128 .f32)
    (h4 : a4.IsWhole) (hc : cond0_0 i) (x0 x1 : Vec F S1x64x128x128 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x128x128) hz3, View.readCov_unit_zero (S := S1x128x128) _ hz3]
  simp only [View.readAt_eq_ld, h2.read_unread, h3.read_unread, View.ld_unit_zero (S := S1x64x128x128) hz4]

end Cert.KernelIdeal.CorrValue

end
-- ==== Proof.CorrSums.lean ====
/-
  The arithmetic both programs share, with no program in sight.

  A pixel (b, h, w) of the full-resolution correlation map is the sum over the 256 channels of the
  products x(b,c,h,w) · y(b,c,h,w); the kernel takes it as four sums of 64 channels each, added from the
  left.  A pooled entry (b, i, j) is the sum of the map over the 2 × 2 patch of pixels (2i+p, 2j+q).
  The reference takes the same entry as ONE sum over (c, p, q) of the reshaped product.  On the extended
  reals addition is commutative and associative at every value, so the two agree with no finiteness
  hypothesis: the only laws used are re-indexing of a finite sum and the exchange of two finite sums.
-/
import Idealize.ShloMosaic.Lib.ValueIdx
import Idealize.ShloMosaic.Lib.ValueIdxRank6
import Idealize.ShloMosaic.Lib.Pipeline.Value
import Idealize.ShloMosaic.PureOps.Ideal.Laws

noncomputable section

namespace Cert.Corr

open Idealize.ShloMosaic Idealize.ShloMosaic.ValueIdx

/-- The inputs' shape (batch, channel, row, column). -/
abbrev In4 : Shape := ⟨4, ![8, 256, 128, 128]⟩
/-- The full-resolution map (batch, row, column). -/
abbrev Full3 : Shape := ⟨3, ![8, 128, 128]⟩
/-- The map with rows and columns split into (patch, offset). -/
abbrev Patch5 : Shape := ⟨5, ![8, 64, 2, 64, 2]⟩
/-- The inputs with rows and columns split the same way. -/
abbrev Patch6 : Shape := ⟨6, ![8, 256, 64, 2, 64, 2]⟩
/-- The pooled map (batch, patch row, patch column). -/
abbrev Pool3 : Shape := ⟨3, ![8, 64, 64]⟩

/-- Pixel coordinate `2i + p` of patch `i` at offset `p`. -/
abbrev fine (i : Fin 64) (p : Fin 2) : Fin 128 := ⟨2 * i.val + p.val, by have := i.isLt; have := p.isLt; omega⟩

/-- Channel `64·n + cc` of the `n`-th group of 64 (the group taken modulo 4, so that the term is total in `n`). -/
abbrev chan (n : ℕ) (cc : Fin 64) : Fin 256 := ⟨64 * (n % 4) + cc.val, by have := cc.isLt; omega⟩

/-- Batch entry `n / 4` of grid point `n` (taken modulo 8, so that the term is total in `n`). -/
abbrev batch (n : ℕ) : Fin 8 := ⟨n / 4 % 8, Nat.mod_lt _ (by decide)⟩

/-! ## Finite sums re-indexed -/

/-- A sum over the fibre of `drop` above `j` is the sum over any type that parametrises the fibre. -/
theorem sum_fibre {ι κ τ M : Type*} [Fintype ι] [Fintype τ] [AddCommMonoid M] (drop : ι → κ) (j : κ)
    [DecidablePred fun i => drop i = j] (emb : τ → ι) (back : ι → τ)
    (h1 : ∀ k, drop (emb k) = j) (h2 : ∀ k, back (emb k) = k) (h3 : ∀ i, drop i = j → emb (back i) = i) (x : ι → M) :
    ∑ i ∈ Finset.univ.filter (fun i => drop i = j), x i = ∑ k : τ, x (emb k) := by
  refine Finset.sum_nbij' back emb ?_ ?_ ?_ ?_ ?_
  · intro i _; exact Finset.mem_univ _
  · intro k _; exact Finset.mem_filter.mpr ⟨Finset.mem_univ _, h1 k⟩
  · intro i hi; exact h3 i (Finset.mem_filter.mp hi).2
  · intro k _; exact h2 k
  · intro i hi; rw [h3 i (Finset.mem_filter.mp hi).2]

/-- The 256 channels are the four groups of 64. -/
theorem sum_groups {M : Type*} [AddCommMonoid M] (f : Fin 256 → M) :
    ∑ n ∈ Finset.range 4, ∑ cc : Fin 64, f (chan n cc) = ∑ c : Fin 256, f c := by
  rw [Finset.sum_range (fun n => ∑ cc : Fin 64, f (chan n cc)), ← Fintype.sum_prod_type']
  refine Fintype.sum_equiv (finProdFinEquiv : Fin 4 × Fin 64 ≃ Fin 256) _ _ (fun p => congrArg f (Fin.ext ?_))
  show 64 * (p.1.val % 4) + p.2.val = p.2.val + 64 * p.1.val
  have := p.1.isLt; omega

/-- Summing the patch first and the channels inside, or the channels first and the patch inside. -/
theorem sum_patch_channels {M : Type*} [AddCommMonoid M] (g : Fin 256 → Fin 2 → Fin 2 → M) :
    ∑ p : Fin 2, ∑ q : Fin 2, ∑ c : Fin 256, g c p q = ∑ c : Fin 256, ∑ p : Fin 2, ∑ q : Fin 2, g c p q := by
  calc ∑ p : Fin 2, ∑ q : Fin 2, ∑ c : Fin 256, g c p q
      = ∑ p : Fin 2, ∑ c : Fin 256, ∑ q : Fin 2, g c p q := Finset.sum_congr rfl fun p _ => Finset.sum_comm
    _ = ∑ c : Fin 256, ∑ p : Fin 2, ∑ q : Fin 2, g c p q := Finset.sum_comm

/-! ## The two reshapes read at an index -/

/-- Splitting rows and columns of the map: entry (b, i, p, j, q) is pixel (b, 2i+p, 2j+q). -/
theorem split_map_apply {α : Type} (v : Full3.Idx → α) (h : Full3.ShapeCasts Patch5) (b : Fin 8) (i : Fin 64) (p : Fin 2)
    (j : Fin 64) (q : Fin 2) : shapeCast Patch5 v h (ix5 b i p j q) = v (ix3 b (fine i p) (fine j q)) := by
  refine shapeCast_apply v h _ _ ?_
  rw [Shape.rowMajor_val_three, Shape.rowMajor_val_five]
  show (b.val * 128 + (2 * i.val + p.val)) * 128 + (2 * j.val + q.val)
    = (((b.val * 64 + i.val) * 2 + p.val) * 64 + j.val) * 2 + q.val
  omega

/-- Splitting rows and columns of an input: entry (b, c, i, p, j, q) is (b, c, 2i+p, 2j+q). -/
theorem split_input_apply {α : Type} (v : In4.Idx → α) (h : In4.ShapeCasts Patch6) (b : Fin 8) (c : Fin 256) (i : Fin 64)
    (p : Fin 2) (j : Fin 64) (q : Fin 2) :
    shapeCast Patch6 v h (ix6 b c i p j q) = v (ix4 b c (fine i p) (fine j q)) := by
  refine shapeCast_apply v h _ _ ?_
  rw [Shape.rowMajor_val_four, Shape.rowMajor_val_six]
  show ((b.val * 256 + c.val) * 128 + (2 * i.val + p.val)) * 128 + (2 * j.val + q.val)
    = ((((b.val * 256 + c.val) * 64 + i.val) * 2 + p.val) * 64 + j.val) * 2 + q.val
  omega

/-! ## The two host sums read at an index -/

/-- The sum over the two offset axes of the split map, at pooled index (b, i, j). -/
theorem pool_map_apply (r : Patch5.ReducesTo [2, 4] Pool3) (x : Patch5.Idx → EReal) (init : EReal) (b : Fin 8) (i j : Fin 64) :
    Ideal.hostReduceAdd r x init (ix3 b i j) = init + ∑ p : Fin 2, ∑ q : Fin 2, x (ix5 b i p j q) := by
  unfold Ideal.hostReduceAdd
  rw [sum_fibre r.drop (ix3 b i j) (fun k : Fin 2 × Fin 2 => ix5 b i k.1 j k.2) (fun i => (i 2, i 4)) ?_ ?_ ?_ x,
    Fintype.sum_prod_type]
  · intro k; funext a
    match a with
    | ⟨0, _⟩ => rfl
    | ⟨1, _⟩ => rfl
    | ⟨2, _⟩ => rfl
  · intro k; rfl
  · intro i' hi; funext a
    match a with
    | ⟨0, _⟩ => exact (congrFun hi 0).symm
    | ⟨1, _⟩ => exact (congrFun hi 1).symm
    | ⟨2, _⟩ => rfl
    | ⟨3, _⟩ => exact (congrFun hi 2).symm
    | ⟨4, _⟩ => rfl

/-- The sum over the channel axis and the two offset axes of the split product, at pooled index (b, i, j). -/
theorem pool_input_apply (r : Patch6.ReducesTo [1, 3, 5] Pool3) (x : Patch6.Idx → EReal) (init : EReal) (b : Fin 8)
    (i j : Fin 64) :
    Ideal.hostReduceAdd r x init (ix3 b i j) = init + ∑ c : Fin 256, ∑ p : Fin 2, ∑ q : Fin 2, x (ix6 b c i p j q) := by
  unfold Ideal.hostReduceAdd
  rw [sum_fibre r.drop (ix3 b i j) (fun k : Fin 256 × Fin 2 × Fin 2 => ix6 b k.1 i k.2.1 j k.2.2)
      (fun i => (i 1, i 3, i 5)) ?_ ?_ ?_ x, Fintype.sum_prod_type]
  · exact congrArg (init + ·) (Finset.sum_congr rfl fun c _ => Fintype.sum_prod_type _)
  · intro k; funext a
    match a with
    | ⟨0, _⟩ => rfl
    | ⟨1, _⟩ => rfl
    | ⟨2, _⟩ => rfl
  · intro k; rfl
  · intro i' hi; funext a
    match a with
    | ⟨0, _⟩ => exact (congrFun hi 0).symm
    | ⟨1, _⟩ => rfl
    | ⟨2, _⟩ => exact (congrFun hi 1).symm
    | ⟨3, _⟩ => rfl
    | ⟨4, _⟩ => exact (congrFun hi 2).symm
    | ⟨5, _⟩ => rfl

/-! ## The kernel's map and the bridge -/

/-- One pixel of the map as the kernel accumulates it: the four 64-channel sums of products, group after group. -/
def corrAt (x y : In4.Idx → EReal) (b : Fin 8) (h w : Fin 128) : EReal :=
  ∑ n ∈ Finset.range 4, ∑ cc : Fin 64, x (ix4 b (chan n cc) h w) * y (ix4 b (chan n cc) h w)

/-- One pixel after the first `g + 1` channel groups. -/
def partialAt (x y : In4.Idx → EReal) (b : Fin 8) (h w : Fin 128) (g : ℕ) : EReal :=
  ∑ n ∈ Finset.range (g + 1), ∑ cc : Fin 64, x (ix4 b (chan n cc) h w) * y (ix4 b (chan n cc) h w)

theorem partialAt_zero (x y : In4.Idx → EReal) (b : Fin 8) (h w : Fin 128) :
    partialAt x y b h w 0 = ∑ cc : Fin 64, x (ix4 b (chan 0 cc) h w) * y (ix4 b (chan 0 cc) h w) := by
  unfold partialAt; rw [Finset.sum_range_one]

theorem partialAt_succ (x y : In4.Idx → EReal) (b : Fin 8) (h w : Fin 128) (g : ℕ) :
    partialAt x y b h w (g + 1)
      = partialAt x y b h w g + ∑ cc : Fin 64, x (ix4 b (chan (g + 1) cc) h w) * y (ix4 b (chan (g + 1) cc) h w) := by
  unfold partialAt; rw [Finset.sum_range_succ]

/-- After all four groups the pixel is complete. -/
theorem partialAt_three (x y : In4.Idx → EReal) (b : Fin 8) (h w : Fin 128) : partialAt x y b h w 3 = corrAt x y b h w := rfl

/-- The full-resolution map. -/
def corrFull (x y : In4.Idx → EReal) : Full3.Idx → EReal := fun k => corrAt x y (k 0) (k 1) (k 2)

theorem corrFull_apply (x y : In4.Idx → EReal) (b : Fin 8) (h w : Fin 128) :
    corrFull x y (ix3 b h w) = corrAt x y b h w := rfl

/-- The four group sums are the sum over all 256 channels. -/
theorem corrAt_eq (x y : In4.Idx → EReal) (b : Fin 8) (h w : Fin 128) :
    corrAt x y b h w = ∑ c : Fin 256, x (ix4 b c h w) * y (ix4 b c h w) :=
  sum_groups fun c => x (ix4 b c h w) * y (ix4 b c h w)

/-- Pooling the kernel's map over 2 × 2 patches is the reference's one sum over channels and patch offsets of the
    product of the inputs: the same finite sum in another order. -/
theorem pooled_eq (x y : In4.Idx → EReal) (h5 : Full3.ShapeCasts Patch5) (r5 : Patch5.ReducesTo [2, 4] Pool3)
    (h6 : In4.ShapeCasts Patch6) (r6 : Patch6.ReducesTo [1, 3, 5] Pool3) (init : EReal) :
    Ideal.hostReduceAdd r5 (shapeCast Patch5 (corrFull x y) h5) init
      = Ideal.hostReduceAdd r6 (shapeCast Patch6 (fun k => x k * y k) h6) init := by
  funext k
  obtain ⟨b, i, j, rfl⟩ : ∃ (b : Fin 8) (i j : Fin 64), k = ix3 b i j := ⟨k 0, k 1, k 2, eq_ix3 k⟩
  rw [pool_map_apply, pool_input_apply]
  simp only [split_map_apply, split_input_apply, corrFull_apply, corrAt_eq]
  rw [sum_patch_channels (fun c p q => x (ix4 b c (fine i p) (fine j q)) * y (ix4 b c (fine i p) (fine j q)))]

end Cert.Corr

end
-- ==== Proof.KernelMap.lean ====
/-
  The kernel region's result array, read at the exact values.

  Grid point n works on batch entry n / 4 and channel group n % 4.  After it the output block holds, at every
  pixel, the sum of the products over the channel groups 0 … n % 4 of that batch entry: the first group starts
  from the stored zeros, every later group adds its 64 products to what the point before left.  The block is
  written back after the fourth group, so the array ends as the full-resolution map of Proof/CorrSums.lean.
-/
import proofs.«125104_j44255343018948_1_alg».proof.Proof.KernelPieces
import proofs.«125104_j44255343018948_1_alg».proof.Proof.CorrSums

noncomputable section

namespace Cert.KernelIdeal.CorrValue

open Idealize.ShloMosaic Idealize.ShloMosaic.TcCoe Idealize.SL.Sem Idealize.ShloMosaic.ValueIdx
open Idealize.ShloMosaic.Pipeline (Dat)
open Cert.KernelIdeal Cert.KernelIdeal.Gen Cert.Corr

variable (m : (ℓ : Loc nD τ sig) → Buf (Elt Ideal) ℓ) (ρ : Dev nD → PrngReg)

/-- The two inputs as the region finds them, as functions of (batch, channel, row, column). -/
abbrev xin (c : Dev nD) : In4.Idx → EReal := m ((c : Thread nD τ).loc main_arg0)
abbrev yin (c : Dev nD) : In4.Idx → EReal := m ((c : Thread nD τ).loc main_arg1)

/-- The two input blocks of a grid point, at their literal type. -/
abbrev xblk (c : Dev nD) (t : Fin cfg0.N) : Vec Ideal S1x64x128x128 .f32 := iblk m c 0 t
abbrev yblk (c : Dev nD) (t : Fin cfg0.N) : Vec Ideal S1x64x128x128 .f32 := iblk m c 1 t

/-! ## The body's term at a pixel -/

/-- The index the channel reduction reads at pixel (h, w) and channel `cc`. -/
theorem lift_channel (r : S1x64x128x128.Reduces [1] S1x128x128) (h w : Fin 128) (cc : Fin 64) :
    r.lift (ix3 (0 : Fin 1) h w) cc = ix4 (0 : Fin 1) cc h w := by
  funext a; apply Fin.ext
  match a with
  | ⟨0, _⟩ => rfl
  | ⟨1, _⟩ => rfl
  | ⟨2, _⟩ => rfl
  | ⟨3, _⟩ => rfl

/-- The body's stored value at pixel (h, w): what it read back there, plus the sum over the block's 64 channels of
    the products of the two input blocks. -/
theorem body_term_apply (v3 v4 : Vec Ideal S1x64x128x128 .f32) (v7 : Vec Ideal S1x128x128 .f32) (h w : Fin 128) :
    k0_pay2 (F := Ideal) v3 v4 v7 (ix3 (0 : Fin 1) h w)
      = v7 (ix3 (0 : Fin 1) h w) + ∑ cc : Fin 64, v3 (ix4 (0 : Fin 1) cc h w) * v4 (ix4 (0 : Fin 1) cc h w) := by
  unfold k0_pay2
  show (shapeCast S1x128x128 v7 shapeCasts_S1x128x128_S1x128x128) (ix3 (0 : Fin 1) h w)
      + multiReduction (F := Ideal) .add [1] S1x128x128 (mulf v3 v4) 0x00000000#32 reduces_S1x64x128x128_S1x128x128 (.inl rfl) rfl
          (ix3 (0 : Fin 1) h w) = _
  rw [shapeCast_self]
  refine congrArg (v7 (ix3 (0 : Fin 1) h w) + ·) ?_
  refine (Ideal.multiReduction_add_single (φ := .f32) (mulf v3 v4) 0x00000000#32 reduces_S1x64x128x128_S1x128x128
    (.inl rfl) rfl (ix3 (0 : Fin 1) h w)).trans ?_
  show ∑ cc : Fin 64, v3 (reduces_S1x64x128x128_S1x128x128.lift (ix3 (0 : Fin 1) h w) cc)
      * v4 (reduces_S1x64x128x128_S1x128x128.lift (ix3 (0 : Fin 1) h w) cc) = _
  refine Finset.sum_congr rfl fun cc _ => ?_
  exact congrArg (fun i => v3 i * v4 i) (lift_channel _ h w cc)

/-- The block of zeros the first group stores is zero at every pixel. -/
theorem zero_block_apply (k : S1x128x128.Idx) : k0_pay1 (F := Ideal) k = 0 := Ideal.ofBits_zero_f32

/-! ## The windows' blocks -/

/-- The printed index maps, decided over the grid: an input block is (batch n / 4, group n % 4), the output block is
    batch n / 4. -/
theorem index_facts : ∀ t : Fin cfg0.N,
    win0_0.index t (0 : Fin 4) = t.val / 4 ∧ win0_0.index t (1 : Fin 4) = t.val % 4
    ∧ win0_0.index t (2 : Fin 4) = 0 ∧ win0_0.index t (3 : Fin 4) = 0
    ∧ win0_1.index t (0 : Fin 4) = t.val / 4 ∧ win0_1.index t (1 : Fin 4) = t.val % 4
    ∧ win0_1.index t (2 : Fin 4) = 0 ∧ win0_1.index t (3 : Fin 4) = 0
    ∧ win0_2.index t (0 : Fin 3) = t.val / 4 ∧ win0_2.index t (1 : Fin 3) = 0 ∧ win0_2.index t (2 : Fin 3) = 0 :=
  (by decide +kernel : ∀ t : Fin grid0.N, _)

/-- Channel `cc` of the first input's block at point `t` is channel `64 (t % 4) + cc` of batch entry `t / 4`. -/
theorem x_block_apply (c : Dev nD) (t : Fin cfg0.N) (cc : Fin 64) (h w : Fin 128) :
    xblk m c t (ix4 (0 : Fin 1) cc h w) = xin m c (ix4 (batch t.val) (chan t.val cc) h w) := by
  have hN : t.val < 32 := lt_of_lt_of_eq t.isLt N_0
  obtain ⟨e0, e1, e2, e3, -⟩ := index_facts t
  show iblk m c 0 t (ix4 (0 : Fin 1) cc h w) = _
  unfold iblk
  rw [View.read_apply]
  show m ((c : Thread nD τ).loc main_arg0) _ = m ((c : Thread nD τ).loc main_arg0) _
  congr 1
  funext a; apply Fin.ext
  match a with
  | ⟨0, _⟩ => show win0_0.index t (0 : Fin 4) * 1 + 1 * 0 = t.val / 4 % 8; omega
  | ⟨1, _⟩ => show win0_0.index t (1 : Fin 4) * 64 + 1 * cc.val = 64 * (t.val % 4) + cc.val; omega
  | ⟨2, _⟩ => show win0_0.index t (2 : Fin 4) * 128 + 1 * h.val = h.val; omega
  | ⟨3, _⟩ => show win0_0.index t (3 : Fin 4) * 128 + 1 * w.val = w.val; omega

/-- The same for the second input. -/
theorem y_block_apply (c : Dev nD) (t : Fin cfg0.N) (cc : Fin 64) (h w : Fin 128) :
    yblk m c t (ix4 (0 : Fin 1) cc h w) = yin m c (ix4 (batch t.val) (chan t.val cc) h w) := by
  have hN : t.val < 32 := lt_of_lt_of_eq t.isLt N_0
  obtain ⟨-, -, -, -, e0, e1, e2, e3, -⟩ := index_facts t
  show iblk m c 1 t (ix4 (0 : Fin 1) cc h w) = _
  unfold iblk
  rw [View.read_apply]
  show m ((c : Thread nD τ).loc main_arg1) _ = m ((c : Thread nD τ).loc main_arg1) _
  congr 1
  funext a; apply Fin.ext
  match a with
  | ⟨0, _⟩ => show win0_1.index t (0 : Fin 4) * 1 + 1 * 0 = t.val / 4 % 8; omega
  | ⟨1, _⟩ => show win0_1.index t (1 : Fin 4) * 64 + 1 * cc.val = 64 * (t.val % 4) + cc.val; omega
  | ⟨2, _⟩ => show win0_1.index t (2 : Fin 4) * 128 + 1 * h.val = h.val; omega
  | ⟨3, _⟩ => show win0_1.index t (3 : Fin 4) * 128 + 1 * w.val = w.val; omega

/-! ## The output block point by point -/

/-- The output block after grid point `n`: at each pixel the products summed over channel groups 0 … n % 4 of batch
    entry n / 4. -/
def accBlock (c : Dev nD) (n : ℕ) : Vec Ideal S1x128x128 .f32 := fun k =>
  partialAt (xin m c) (yin m c) (batch n) (k 1) (k 2) (n % 4)

theorem accBlock_apply (c : Dev nD) (n : ℕ) (h w : Fin 128) :
    accBlock m c n (ix3 (0 : Fin 1) h w) = partialAt (xin m c) (yin m c) (batch n) h w (n % 4) := rfl

/-- At a first group the body's term over the zero block is the first partial sum. -/
theorem first_value (c : Dev nD) (t : Fin cfg0.N) (h0 : t.val % 4 = 0) :
    k0_pay2 (F := Ideal) (xblk m c t) (yblk m c t) (k0_pay1 (F := Ideal)) = accBlock m c t.val := by
  funext k
  obtain ⟨z, h, w, rfl⟩ : ∃ (z : Fin 1) (h w : Fin 128), k = ix3 z h w := ⟨k 0, k 1, k 2, eq_ix3 k⟩
  obtain rfl : z = 0 := Subsingleton.elim _ _
  rw [body_term_apply, zero_block_apply, zero_add, accBlock_apply, h0, partialAt_zero]
  refine Finset.sum_congr rfl fun cc _ => ?_
  have hc : chan t.val cc = chan 0 cc := Fin.ext (by show 64 * (t.val % 4) + cc.val = 64 * (0 % 4) + cc.val; omega)
  rw [x_block_apply, y_block_apply, hc]

/-- At a later group the body's term over the block of the point before is the next partial sum. -/
theorem later_value (c : Dev nD) (t : Fin cfg0.N) (h0 : ¬t.val % 4 = 0) :
    k0_pay2 (F := Ideal) (xblk m c t) (yblk m c t) (accBlock m c (t.val - 1)) = accBlock m c t.val := by
  funext k
  obtain ⟨z, h, w, rfl⟩ : ∃ (z : Fin 1) (h w : Fin 128), k = ix3 z h w := ⟨k 0, k 1, k 2, eq_ix3 k⟩
  obtain rfl : z = 0 := Subsingleton.elim _ _
  have hb : batch (t.val - 1) = batch t.val := Fin.ext (by show (t.val - 1) / 4 % 8 = t.val / 4 % 8; omega)
  have hg : t.val % 4 = (t.val - 1) % 4 + 1 := by omega
  rw [body_term_apply, accBlock_apply, accBlock_apply, hb, hg, partialAt_succ]
  refine congrArg (partialAt (xin m c) (yin m c) (batch t.val) h w ((t.val - 1) % 4) + ·)
    (Finset.sum_congr rfl fun cc _ => ?_)
  have hc : chan t.val cc = chan ((t.val - 1) % 4 + 1) cc :=
    Fin.ext (by show 64 * (t.val % 4) + cc.val = 64 * (((t.val - 1) % 4 + 1) % 4) + cc.val; omega)
  rw [x_block_apply, y_block_apply, hc]

/-- What the output's staging buffer holds after point `n` is that block: by induction on the point, a first group
    from the zeros, a later group from the point before. -/
theorem outsAt_eq (c : Dev nD) : ∀ (n : ℕ) (hn : n < cfg0.N), outsAt0 m c n hn = accBlock m c n := by
  intro n
  induction n with
  | zero =>
    intro hn
    exact (outsAt0_A m c ⟨0, hn⟩ rfl).trans ((first_group ..).trans (first_value m c ⟨0, hn⟩ rfl))
  | succ n ih =>
    intro hn
    by_cases h0 : (n + 1) % 4 = 0
    · exact (outsAt0_A m c ⟨n + 1, hn⟩ h0).trans ((first_group ..).trans (first_value m c ⟨n + 1, hn⟩ h0))
    · refine (outsAt0_B m c ⟨n + 1, hn⟩ h0).trans ((later_group ..).trans ?_)
      show k0_pay2 (F := Ideal) (xblk m c ⟨n + 1, hn⟩) (yblk m c ⟨n + 1, hn⟩) (outsAt0 m c n _) = _
      rw [ih]
      exact later_value m c ⟨n + 1, hn⟩ h0

/-! ## The array after the run -/

/-- Pixel (h, w) of the output block at point `t` is pixel (t / 4, h, w) of the array. -/
theorem out_block_emb (t : Fin cfg0.N) (h w : Fin 128) :
    ((cfg0.win 2).blk t).view.emb (ix3 (0 : Fin 1) h w) = ix3 (batch t.val) h w := by
  have hN : t.val < 32 := lt_of_lt_of_eq t.isLt N_0
  obtain ⟨-, -, -, -, -, -, -, -, e0, e1, e2⟩ := index_facts t
  funext a; apply Fin.ext
  match a with
  | ⟨0, _⟩ => show win0_2.index t (0 : Fin 3) * 1 + 1 * 0 = t.val / 4 % 8; omega
  | ⟨1, _⟩ => show win0_2.index t (1 : Fin 3) * 128 + 1 * h.val = h.val; omega
  | ⟨2, _⟩ => show win0_2.index t (2 : Fin 3) * 128 + 1 * w.val = w.val; omega

/-- A write-back (after a fourth group) writes the finished pixels of its batch entry. -/
theorem flushed_eq (c : Dev nD) (t : Fin cfg0.N) (hf : (cfg0.win 2).flush t = true) :
    (dats m 0 c).flushed 2 t = ((cfg0.win 2).blk t).view.read (Elt Ideal) (corrFull (xin m c) (yin m c)) := by
  have h3 : t.val % 4 = 3 := (flush0_2 t).mp hf
  show (cfg0.win 2).cut (grid0.coords t) ((dats m 0 c).after 2 t) = _
  rw [after0_2, outsAt_eq]
  funext k
  show accBlock m c t.val k = corrFull (xin m c) (yin m c) (((cfg0.win 2).blk t).view.emb k)
  obtain ⟨z, h, w, rfl⟩ : ∃ (z : Fin 1) (h w : Fin 128), k = ix3 z h w := ⟨k 0, k 1, k 2, eq_ix3 k⟩
  obtain rfl : z = 0 := Subsingleton.elim _ _
  rw [out_block_emb, corrFull_apply, accBlock_apply, h3, partialAt_three]

/-- Every pixel of the array is written back, by the fourth group of its batch entry: the array ends as the
    full-resolution map of the two inputs. -/
theorem final_map (c : Dev nD) : (dats m 0 c).arrAt 2 cfg0.N = corrFull (xin m c) (yin m c) :=
  (dats m 0 c).arrAt_eq_of_cover 2 (corrFull (xin m c) (yin m c)) (flushed_eq m c) fun i => by
    have hb : (i 0).val < 8 := (i 0).isLt
    have hh : (i 1).val < 128 := (i 1).isLt
    have hw : (i 2).val < 128 := (i 2).isLt
    have hlt : 4 * (i 0).val + 3 < cfg0.N := by rw [show cfg0.N = 32 from N_0]; omega
    obtain ⟨-, -, -, -, -, -, -, -, e0, e1, e2⟩ := index_facts ⟨4 * (i 0).val + 3, hlt⟩
    have e0' : win0_2.index ⟨4 * (i 0).val + 3, hlt⟩ (0 : Fin 3) = (4 * (i 0).val + 3) / 4 := e0
    refine ⟨⟨4 * (i 0).val + 3, hlt⟩, (flush0_2 _).mpr (by show (4 * (i 0).val + 3) % 4 = 3; omega), ?_⟩
    show i ∈ ((View.whole main_v0).slice (win0_2.rect ⟨4 * (i 0).val + 3, hlt⟩)).set
    rw [View.set_slice_whole, Rect.mem_set_unit]
    intro a
    match a with
    | ⟨0, _⟩ =>
      show win0_2.index ⟨4 * (i 0).val + 3, hlt⟩ (0 : Fin 3) * 1 ≤ (i 0).val
        ∧ (i 0).val < win0_2.index ⟨4 * (i 0).val + 3, hlt⟩ (0 : Fin 3) * 1 + 1
      omega
    | ⟨1, _⟩ =>
      show win0_2.index ⟨4 * (i 0).val + 3, hlt⟩ (1 : Fin 3) * 128 ≤ (i 1).val
        ∧ (i 1).val < win0_2.index ⟨4 * (i 0).val + 3, hlt⟩ (1 : Fin 3) * 128 + 128
      omega
    | ⟨2, _⟩ =>
      show win0_2.index ⟨4 * (i 0).val + 3, hlt⟩ (2 : Fin 3) * 128 ≤ (i 2).val
        ∧ (i 2).val < win0_2.index ⟨4 * (i 0).val + 3, hlt⟩ (2 : Fin 3) * 128 + 128
      omega

end Cert.KernelIdeal.CorrValue

end
-- ==== Proof.Result.lean ====
/-
  The whole kernel program's result, and that it is the reference's.

  After the region the kernel program splits rows and columns of its map into (patch, offset), sums the two offset
  axes from zero, and writes the pooled map into slot (0, 0) of an array of zeros.  The reference multiplies the
  inputs, splits rows and columns the same way, sums the channel axis and the two offset axes from zero, and
  writes the pooled map into the same array of zeros in the same way.  The last step is one function of the
  pooled map in both programs and is never opened; the pooled maps are equal by Proof/CorrSums.lean.
-/
import proofs.«125104_j44255343018948_1_alg».proof.Proof.KernelMap
import proofs.«125104_j44255343018948_1_alg».proof.Proof.Gen.ReferenceIdeal.Run
import Idealize.ShloMosaic.Lib.StableHlo.Run

noncomputable section

namespace Cert.KernelIdeal.CorrValue

open Idealize.ShloMosaic Idealize.ShloMosaic.TcCoe Idealize.SL.Sem Idealize.ShloMosaic.ValueIdx
open Idealize.ShloMosaic.Pipeline (Dat)
open Cert.KernelIdeal Cert.KernelIdeal.Gen Cert.Corr

variable (m : (ℓ : Loc nD τ sig) → Buf (Elt Ideal) ℓ) (ρ : Dev nD → PrngReg)

/-- The pooled map written into slot (0, 0) of the array of zeros: the last step of both programs. -/
def placed (p : FVec Ideal S8x64x64 .f32) : FVec Ideal S8x2x2x64x64 .f32 :=
  Host.scatter scatter_S8x2x2x64x64_S2_S8x64x64_012_12_12_0 (fun _ b => b)
    (broadcastInDim S8x2x2x64x64 ![] bcast_S_S8x2x2x64x64 (constant (F := Ideal) S_ .f32 0x00000000#32))
    (concatenate S2 0
      [⟨S1, broadcastInDim S1 ![] bcast_S_S1 (constantI S_ 32 0#32)⟩,
        ⟨S1, broadcastInDim S1 ![] bcast_S_S1 (constantI S_ 32 0#32)⟩]
      concatenates_S1_S1_S2_d0)
    p

/-- The kernel program's pooled map: its full-resolution map summed over 2 × 2 patches, from zero. -/
def pooled (c : Dev nD) : FVec Ideal S8x64x64 .f32 :=
  Ideal.hostReduceAdd reducesTo_S8x64x2x64x2_S8x64x64_d2_4
    (shapeCast Patch5 (corrFull (xin m c) (yin m c)) shapeCasts_S8x128x128_S8x64x2x64x2) (Ideal.ofBits .f32 0x00000000#32)

/-- The kernel program's result. -/
def result (c : Dev nD) : Buf (Elt Ideal) ((c : Thread nD τ).loc main_v7) := placed (pooled m c)

/-- The host operations after the region, run on the region's array, leave the result. -/
theorem tail_eq (c : Dev nD) :
    Pipeline.afterTail₀ cfgs (dats m) 0 (V0 m) [hostOps1] c main_v7 = result m c := by
  have e : Pipeline.withArrays (cfgs 0).spec c (V0 m c) (fun w => (dats m 0 c).arrAt w (cfgs 0).N) (Proc.tc.devRef main_v0)
      = corrFull (xin m c) (yin m c) :=
    (Pipeline.withArrays_arr spec0 launch0.win.arr_inj c _ _ 2).trans (final_map m c)
  unfold Pipeline.afterTail₀
  show StableHlo.after hostOps1 _ (Proc.devRef .tc main_v7) = _
  after_results
  show placed (Host.reduceAdd
      (shapeCast S8x64x2x64x2
        (Pipeline.withArrays (cfgs 0).spec c (V0 m c) (fun w => (dats m 0 c).arrAt w (cfgs 0).N) (Proc.tc.devRef main_v0))
        shapeCasts_S8x128x128_S8x64x2x64x2)
      (constant (F := Ideal) S_ .f32 0x00000000#32) reducesTo_S8x64x2x64x2_S8x64x64_d2_4 h_S_) = placed (pooled m c)
  rw [e]
  rfl

/-- The run, read: the result buffer at `result`, the inputs unchanged. -/
theorem run : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v7 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

/-- The reference's term of the same inputs is the kernel program's result: the last step is shared, and the pooled
    maps are one finite sum in two orders. -/
theorem reference_eq (c : Dev nD) :
    Host.scatter Cert.ReferenceIdeal.scatter_S8x2x2x64x64_S2_S8x64x64_012_12_12_0 (fun _ b => b)
        (broadcastInDim Cert.ReferenceIdeal.S8x2x2x64x64 ![] Cert.ReferenceIdeal.Facts₀.bcast_S_S8x2x2x64x64
          (constant (F := Ideal) Cert.ReferenceIdeal.S_ .f32 0x00000000#32))
        (concatenate Cert.ReferenceIdeal.S2 0
          [⟨Cert.ReferenceIdeal.S1, broadcastInDim Cert.ReferenceIdeal.S1 ![] Cert.ReferenceIdeal.Facts₀.bcast_S_S1 (constantI Cert.ReferenceIdeal.S_ 32 0#32)⟩,
            ⟨Cert.ReferenceIdeal.S1, broadcastInDim Cert.ReferenceIdeal.S1 ![] Cert.ReferenceIdeal.Facts₀.bcast_S_S1 (constantI Cert.ReferenceIdeal.S_ 32 0#32)⟩]
          Cert.ReferenceIdeal.Facts₀.concatenates_S1_S1_S2_d0)
        (Host.reduceAdd
          (shapeCast Cert.ReferenceIdeal.S8x256x64x2x64x2 (mulf (F := Ideal) (xin m c) (yin m c))
            Cert.ReferenceIdeal.Facts₀.shapeCasts_S8x256x128x128_S8x256x64x2x64x2)
          (constant (F := Ideal) Cert.ReferenceIdeal.S_ .f32 0x00000000#32)
          Cert.ReferenceIdeal.Facts₀.reducesTo_S8x256x64x2x64x2_S8x64x64_d1_3_5 Cert.ReferenceIdeal.Facts₀.h_S_)
      = result m c := by
  show placed (Ideal.hostReduceAdd Cert.ReferenceIdeal.Facts₀.reducesTo_S8x256x64x2x64x2_S8x64x64_d1_3_5
      (shapeCast Patch6 (fun k => xin m c k * yin m c k) Cert.ReferenceIdeal.Facts₀.shapeCasts_S8x256x128x128_S8x256x64x2x64x2)
      (Ideal.ofBits .f32 0x00000000#32)) = placed (pooled m c)
  exact congrArg placed (pooled_eq (xin m c) (yin m c) _ _ _ _ _).symm

end Cert.KernelIdeal.CorrValue

end
-- ==== Proof.lean ====
/-
  Spatial correlation with a 2 × 2 patch at stride 2: out[b, 0, 0, i, j] is the sum over the 256 channels c and the
  patch offsets (p, q) of input1[b, c, 2i+p, 2j+q] · input2[b, c, 2i+p, 2j+q]; every other slot of the
  (8, 2, 2, 64, 64) result is zero.

  The kernel computes the full-resolution map first, corr[b, h, w] = Σ_c input1[b, c, h, w] · input2[b, c, h, w], as
  four groups of 64 channels accumulated into one output block per batch entry (Proof/KernelPieces.lean: what one run
  of the body leaves; Proof/KernelMap.lean: the block point by point, and the array after the run), then pools it over
  the patches on the host.  The reference sums the split product over (c, p, q) at once.  On the extended reals the two
  are the same finite sum in two orders (Proof/CorrSums.lean), and the placing of the pooled map into the array of
  zeros is the same step in both programs (Proof/Result.lean).  No step uses that the inputs are finite.

  The three frames: both kernel programs by their generated frame certificates, the reference by its generated run.
  The idealization rewrote nothing, so there is nothing to preserve.
-/
import proofs.«125104_j44255343018948_1_alg».proof.Defs
import proofs.«125104_j44255343018948_1_alg».proof.Proof.Gen.Kernel
import proofs.«125104_j44255343018948_1_alg».proof.Proof.Gen.Kernel.Skeleton
import proofs.«125104_j44255343018948_1_alg».proof.Proof.Gen.Kernel.Launch
import proofs.«125104_j44255343018948_1_alg».proof.Proof.Gen.Kernel.Points
import proofs.«125104_j44255343018948_1_alg».proof.Proof.Gen.Kernel.Frame
import proofs.«125104_j44255343018948_1_alg».proof.Proof.Gen.KernelIdeal
import proofs.«125104_j44255343018948_1_alg».proof.Proof.Gen.KernelIdeal.Skeleton
import proofs.«125104_j44255343018948_1_alg».proof.Proof.Gen.KernelIdeal.Launch
import proofs.«125104_j44255343018948_1_alg».proof.Proof.Gen.KernelIdeal.Points
import proofs.«125104_j44255343018948_1_alg».proof.Proof.Gen.KernelIdeal.Frame
import proofs.«125104_j44255343018948_1_alg».proof.Proof.Gen.ReferenceIdeal
import proofs.«125104_j44255343018948_1_alg».proof.Proof.Gen.ReferenceIdeal.Run
import proofs.«125104_j44255343018948_1_alg».proof.Proof.Gen.Pre_finite_inputs
import proofs.«125104_j44255343018948_1_alg».proof.Proof.Result
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result buffer at the pooled correlation map placed in the array of zeros: the kernel
    program by its run read at the exact values, the reference by its run and the equality of the two pooled maps. -/
theorem algebraic : Cert.algebraic_KernelIdeal_ReferenceIdeal := by
  intro m ρ m' ρ' _ hagree
  refine ⟨fun c => Cert.KernelIdeal.CorrValue.result m c, Cert.KernelIdeal.CorrValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.KernelIdeal.CorrValue.reference_eq m c

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
